-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S4194304 : Shape := ⟨1, ![4194304]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4194304x2 .f32) (main_arg1 : IVec S4194304 32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  let main_c_0 : IVec S_ 32 := constantI S_ 32 0#32
  let main_v4 : IVec S4194304 32 := broadcastInDim S4194304 ![] bcast_S_S4194304 main_c_0
  let main_v5 : IVec S4194304 1 := cmpi .sge main_arg1 main_v4
  let main_c_1 : IVec S_ 32 := constantI S_ 32 2#32
  let main_v6 : IVec S4194304 32 := broadcastInDim S4194304 ![] bcast_S_S4194304 main_c_1
  let main_v7 : IVec S4194304 1 := cmpi .slt main_arg1 main_v6
  let main_v8 : IVec S4194304 1 := andi main_v5 main_v7
  let main_c_2 : IVec S_ 1 := constantI S_ 1 1#1
  let main_v9 : IVec S_ 1 := (fun x v => Host.reduce IntOp.andi x v reducesTo_S4194304_S_d0 h_S_) main_v8 main_c_2
  let main_v10 : IVec S_ 1 := andi main_v3 main_v9
  main_v10
-- ==== Kernel.lean ====
abbrev S4194304x2 : Shape := ⟨2, ![4194304, 2]⟩
abbrev S4194304 : Shape := ⟨1, ![4194304]⟩
abbrev S4194304x1 : Shape := ⟨2, ![4194304, 1]⟩
abbrev S32768x128 : Shape := ⟨2, ![32768, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S4194304x2, .f32⟩
  | .hbm, ⟨1, _⟩ => ⟨S4194304, .i32⟩
  | .hbm, ⟨2, _⟩ => ⟨S4194304x1, .f32⟩
  | .hbm, ⟨3, _⟩ => ⟨S4194304, .f32⟩
  | .hbm, ⟨4, _⟩ => ⟨S32768x128, .f32⟩
  | .hbm, ⟨5, _⟩ => ⟨S4194304x1, .f32⟩
  | .hbm, ⟨6, _⟩ => ⟨S4194304, .f32⟩
  | .hbm, ⟨7, _⟩ => ⟨S32768x128, .f32⟩
  | .hbm, ⟨8, _⟩ => ⟨S32768x128, .i32⟩
  | .hbm, ⟨9, _⟩ => ⟨S1x1, .f32⟩
  | .hbm, ⟨10, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .i32⟩
  | .local _ .vmem, ⟨5, _⟩ => ⟨S4096x128, .i32⟩
  | .local _ .vmem, ⟨6, _⟩ => ⟨S1x1, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S4194304x2_S4194304x1_0_0 : S4194304x2.Slices ![0, 0] S4194304x1
  shapeCasts_S4194304x1_S4194304 : S4194304x1.ShapeCasts S4194304
  shapeCasts_S4194304_S32768x128 : S4194304.ShapeCasts S32768x128
  slices_S4194304x2_S4194304x1_0_1 : S4194304x2.Slices ![0, 1] S4194304x1
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .f32 = 32 ∨ (Rect.block (s := S32768x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S32768x128.size a
  hwx0_1 : ∀ i : grid0.Coords, EltTy.bits .f32 = 32 ∨ (Rect.block (s := S32768x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S32768x128.size a
  hwx0_2 : ∀ i : grid0.Coords, EltTy.bits .i32 = 32 ∨ (Rect.block (s := S32768x128) S4096x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x2 : Shape := ⟨2, ![4194304, 2]⟩
abbrev S4194304 : Shape := ⟨1, ![4194304]⟩
abbrev S_ : Shape := ⟨0, ![]⟩
abbrev S4194304x1 : Shape := ⟨2, ![4194304, 1]⟩

abbrev nBuf : Space → Nat
  | .hbm => 64
  | .vmem => 0
  | .smem => 0
  | _ => 0

abbrev bufTy : (tb : Table) → Fin (tcTables nBuf tb) → BufTy
  | .hbm, ⟨0, _⟩ => ⟨S4194304x2, .f32⟩
  | .hbm, ⟨1, _⟩ => ⟨S4194304, .i32⟩
  | .hbm, ⟨2, _⟩ => ⟨S4194304, .i32⟩
  | .hbm, ⟨3, _⟩ => ⟨S_, .i32⟩
  | .hbm, ⟨4, _⟩ => ⟨S4194304, .i32⟩
  | .hbm, ⟨5, _⟩ => ⟨S4194304, .i1⟩
  | .hbm, ⟨6, _⟩ => ⟨S_, .i32⟩
  | .hbm, ⟨7, _⟩ => ⟨S4194304, .i32⟩
  | .hbm, ⟨8, _⟩ => ⟨S4194304, .i32⟩
  | .hbm, ⟨9, _⟩ => ⟨S4194304, .i32⟩
  | .hbm, ⟨10, _⟩ => ⟨S_, .i32⟩
  | .hbm, ⟨11, _⟩ => ⟨S4194304, .i32⟩
  | .hbm, ⟨12, _⟩ => ⟨S4194304, .i1⟩
  | .hbm, ⟨13, _⟩ => ⟨S_, .i32⟩
  | .hbm, ⟨14, _⟩ => ⟨S4194304, .i32⟩
  | .hbm, ⟨15, _⟩ => ⟨S4194304, .i32⟩
  | .hbm, ⟨16, _⟩ => ⟨S4194304, .i32⟩
  | .hbm, ⟨17, _⟩ => ⟨S4194304x1, .i32⟩
  | .hbm, ⟨18, _⟩ => ⟨S4194304x1, .i32⟩
  | .hbm, ⟨19, _⟩ => ⟨S4194304x2, .i32⟩
  | .hbm, ⟨20, _⟩ => ⟨S4194304, .f32⟩
  | .hbm, ⟨21, _⟩ => ⟨S_, .i32⟩
  | .hbm, ⟨22, _⟩ => ⟨S4194304, .i32⟩
  | .hbm, ⟨23, _⟩ => ⟨S4194304, .i32⟩
  | .hbm, ⟨24, _⟩ => ⟨S_, .i32⟩
  | .hbm, ⟨25, _⟩ => ⟨S4194304, .i32⟩
  | .hbm, ⟨26, _⟩ => ⟨S4194304, .i1⟩
  | .hbm, ⟨27, _⟩ => ⟨S_, .i32⟩
  | .hbm, ⟨28, _⟩ => ⟨S4194304, .i32⟩
  | .hbm, ⟨29, _⟩ => ⟨S4194304, .i32⟩
  | .hbm, ⟨30, _⟩ => ⟨S4194304, .i32⟩
  | .hbm, ⟨31, _⟩ => ⟨S_, .i32⟩
  | .hbm, ⟨32, _⟩ => ⟨S4194304, .i32⟩
  | .hbm, ⟨33, _⟩ => ⟨S4194304, .i1⟩
  | .hbm, ⟨34, _⟩ => ⟨S_, .i32⟩
  | .hbm, ⟨35, _⟩ => ⟨S4194304, .i32⟩
  | .hbm, ⟨36, _⟩ => ⟨S4194304, .i32⟩
  | .hbm, ⟨37, _⟩ => ⟨S4194304, .i32⟩
  | .hbm, ⟨38, _⟩ => ⟨S4194304x1, .i32⟩
  | .hbm, ⟨39, _⟩ => ⟨S4194304x1, .i32⟩
  | .hbm, ⟨40, _⟩ => ⟨S4194304x2, .i32⟩
  | .hbm, ⟨41, _⟩ => ⟨S4194304, .f32⟩
  | .hbm, ⟨42, _⟩ => ⟨S_, .i32⟩
  | .hbm, ⟨43, _⟩ => ⟨S4194304, .i32⟩
  | .hbm, ⟨44, _⟩ => ⟨S4194304, .i1⟩
  | .hbm, ⟨45, _⟩ => ⟨S_, .f32⟩
  | .hbm, ⟨46, _⟩ => ⟨S_, .f32⟩
  | .hbm, ⟨47, _⟩ => ⟨S4194304, .f32⟩
  | .hbm, ⟨48, _⟩ => ⟨S4194304, .f32⟩
  | .hbm, ⟨49, _⟩ => ⟨S4194304, .f32⟩
  | .hbm, ⟨50, _⟩ => ⟨S4194304, .f32⟩
  | .hbm, ⟨51, _⟩ => ⟨S4194304, .f32⟩
  | .hbm, ⟨52, _⟩ => ⟨S4194304, .f32⟩
  | .hbm, ⟨53, _⟩ => ⟨S4194304, .i1⟩
  | .hbm, ⟨54, _⟩ => ⟨S4194304, .f32⟩
  | .hbm, ⟨55, _⟩ => ⟨S4194304, .f32⟩
  | .hbm, ⟨56, _⟩ => ⟨S4194304, .f32⟩
  | .hbm, ⟨57, _⟩ => ⟨S4194304, .f32⟩
  | .hbm, ⟨58, _⟩ => ⟨S4194304, .f32⟩
  | .hbm, ⟨59, _⟩ => ⟨S4194304, .f32⟩
  | .hbm, ⟨60, _⟩ => ⟨S4194304, .f32⟩
  | .hbm, ⟨61, _⟩ => ⟨S4194304, .f32⟩
  | .hbm, ⟨62, _⟩ => ⟨S_, .f32⟩
  | .hbm, ⟨63, _⟩ => ⟨S_, .f32⟩
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_c_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_cst_9 : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  reducesTo_S4194304_S_d0 : S4194304.ReducesTo [0] S_
  h_S_ : 0 < S_.numel
  gather_S4194304x2_S4194304x2_S4194304_n_01_n_n_01_1_11_wf : GatherDims.WF S4194304x2 S4194304x2 S4194304 [] [0, 1] [] [0, 1] [] 1 ![1, 1]

variable [Facts₀]

def gather_S4194304x2_S4194304x2_S4194304_n_01_n_n_01_1_11 : GatherDims S4194304x2 S4194304x2 S4194304 where
  offsetDims := []
  collapsedSliceDims := [0, 1]
  operandBatchingDims := []
  startIndicesBatchingDims := []
  startIndexMap := [0, 1]
  indexVectorDim := 1
  sliceSizes := ![1, 1]
  wf := gather_S4194304x2_S4194304x2_S4194304_n_01_n_n_01_1_11_wf

class Facts : Prop extends Facts₀ where

variable [Facts]
-- ==== Proof.LibBlockSum.lean ====
/-
  A sum over n·b terms taken block by block, and an accumulator that adds one block's sum per step.

  Position t·b + r is the r-th term of block t. Over a commutative monoid the sum of all n·b terms is the sum over the
  blocks of each block's sum: this is only a re-indexing of the positions by (block, place in block). An accumulator
  that holds 0 + g 0 after step 0 and adds g (k+1) at step k+1 holds g 0 + … + g k after step k; with g t the sum of
  block t, after the last step it holds the sum of all terms.
-/
import Mathlib.Algebra.BigOperators.Fin
import Mathlib.Logic.Equiv.Fin.Basic

namespace Cert.BlockSum

open scoped BigOperators

variable {M : Type*} [AddCommMonoid M]

/-- Among `N = n * b` positions, the one of block `t` at place `r`: `t * b + r`. -/
def pos {N : ℕ} (n b : ℕ) (h : N = n * b) (t : Fin n) (r : Fin b) : Fin N :=
  ⟨t.val * b + r.val, by
    subst h
    calc t.val * b + r.val < t.val * b + b := Nat.add_lt_add_left r.isLt _
      _ = (t.val + 1) * b := (Nat.succ_mul _ _).symm
      _ ≤ n * b := Nat.mul_le_mul_right _ t.isLt⟩

@[simp] theorem pos_val {N : ℕ} (n b : ℕ) (h : N = n * b) (t : Fin n) (r : Fin b) :
    (pos n b h t r).val = t.val * b + r.val := rfl

/-- The sum of all terms is the sum over the blocks of each block's sum. -/
theorem sum_blocks {N : ℕ} (n b : ℕ) (h : N = n * b) (f : Fin N → M) :
    ∑ i : Fin N, f i = ∑ t : Fin n, ∑ r : Fin b, f (pos n b h t r) := by
  subst h
  rw [← Fintype.sum_prod_type']
  refine (Fintype.sum_equiv finProdFinEquiv _ _ fun x => ?_).symm
  congr 1
  apply Fin.ext
  show x.1.val * b + x.2.val = x.2.val + b * x.1.val
  rw [Nat.mul_comm, Nat.add_comm]

/-- An accumulator that holds `0 + g 0` after step 0 and adds `g (k + 1)` at step `k + 1` holds, after step `k`,
    the sum of `g 0, …, g k`. -/
theorem chain_eq_sum (N : ℕ) (a g : (k : ℕ) → k < N → M)
    (h0 : ∀ h, a 0 h = 0 + g 0 h)
    (hs : ∀ (k : ℕ) (h : k + 1 < N), a (k + 1) h = a k (Nat.lt_of_succ_lt h) + g (k + 1) h) :
    ∀ (k : ℕ) (h : k < N), a k h = ∑ t : Fin (k + 1), g t.val (Nat.lt_of_lt_of_le t.isLt h)
  | 0, h => by
    rw [h0, zero_add, Fin.sum_univ_castSucc, Fin.sum_univ_zero, zero_add]
    rfl
  | k + 1, h => by
    rw [hs, chain_eq_sum N a g h0 hs k, Fin.sum_univ_castSucc (n := k + 1)]
    rfl

/-- After its last step the accumulator holds the sum of all the `g t`. -/
theorem chain_last (n : ℕ) (a g : (k : ℕ) → k < n + 1 → M)
    (h0 : ∀ h, a 0 h = 0 + g 0 h)
    (hs : ∀ (k : ℕ) (h : k + 1 < n + 1), a (k + 1) h = a k (Nat.lt_of_succ_lt h) + g (k + 1) h) :
    a n (Nat.lt_succ_self n) = ∑ t : Fin (n + 1), g t.val t.isLt :=
  chain_eq_sum (n + 1) a g h0 hs n (Nat.lt_succ_self n)

/-- An accumulator that adds block `t`'s sum at step `t`, starting from `0`, holds after the last of the `n + 1`
    steps the sum of all `(n + 1) * b` terms. -/
theorem chain_blocks_eq_sum {N : ℕ} (n b : ℕ) (hN : N = (n + 1) * b) (f : Fin N → M)
    (a : (k : ℕ) → k < n + 1 → M)
    (h0 : ∀ h, a 0 h = 0 + ∑ r : Fin b, f (pos (n + 1) b hN ⟨0, h⟩ r))
    (hs : ∀ (k : ℕ) (h : k + 1 < n + 1),
      a (k + 1) h = a k (Nat.lt_of_succ_lt h) + ∑ r : Fin b, f (pos (n + 1) b hN ⟨k + 1, h⟩ r)) :
    a n (Nat.lt_succ_self n) = ∑ i : Fin N, f i := by
  rw [sum_blocks (n + 1) b hN f]
  exact chain_last n a (fun k hk => ∑ r : Fin b, f (pos (n + 1) b hN ⟨k, hk⟩ r)) h0 hs

end Cert.BlockSum
-- ==== Proof.Spec.lean ====
/-
  The margin hinge loss of a batch of binary-labelled samples, as one function of the two argument arrays.

  A sample has two logits z₀, z₁ and a label word t. The label picks the logit of the sample's own class,
  z_y = z₀ when t = 0 and z₁ otherwise, the other class's logit z_o, and the class margin δ (one of two fixed
  constants). With a = z_y − δ the sample's loss is logaddexp(a, z_o) − a, where logaddexp(a, z_o) is computed as
  max(a, z_o) + log(1 + exp(−|a − z_o|)), guarded by a test "a − z_o is not equal to itself" that no extended real
  meets. The batch loss is the sum of the samples' losses over the 4 194 304 samples.

  Sample n = (8 blocks) × (4096 rows) × (128 lanes): n = (b·4096 + r)·128 + l. Addition of extended reals is
  commutative and associative, so the batch sum is the sum over blocks of the sum over rows of the sum over lanes.
-/
import Idealize.ShloMosaic.PureOps.Ideal
import Idealize.ShloMosaic.PureOps.Ideal.Laws
import Idealize.ShloMosaic.Lib.ValueIdx
import proofs.«401015_j53386443489369_1_alg».proof.Proof.LibBlockSum

noncomputable section

namespace Cert.Hinge

open Idealize.ShloMosaic Idealize.ShloMosaic.ValueIdx
open scoped BigOperators

/-- The batch: 4 194 304 samples. -/
abbrev nSamples : ℕ := 4194304

/-- The margin of class 0 and of class 1, as the two programs spell them. -/
abbrev margin0 : EReal := Ideal.ofBits .f32 0x368BCF65#32
abbrev margin1 : EReal := Ideal.ofBits .f32 0x35EFACAD#32

/-- logaddexp(a, b) − a, in the form both programs compute it. -/
def softHinge (a b : EReal) : EReal :=
  Scalar.select (Ideal.cmp .une (a - b) (a - b)) (a + b)
      (max a b + Ideal.log1p (Ideal.exp (-(max (a - b) (-(a - b)))))) - a

/-- One sample's loss from its two logits and its label word. -/
def sampleLoss (z0 z1 : EReal) (t : BitVec 32) : EReal :=
  softHinge
    (Scalar.select (IntOp.cmpi .eq t 0#32) z0 z1 - Scalar.select (IntOp.cmpi .eq t 0#32) margin0 margin1)
    (Scalar.select (IntOp.cmpi .eq t 0#32) z1 z0)

/-- Sample `n`'s loss, read off the logits array [N, 2] and the label array [N]. -/
def lossAt (out : (⟨2, ![4194304, 2]⟩ : Shape).Idx → EReal) (tgt : (⟨1, ![4194304]⟩ : Shape).Idx → BitVec 32)
    (n : Fin 4194304) : EReal :=
  sampleLoss (out (ix2 n (0 : Fin 2))) (out (ix2 n (1 : Fin 2))) (tgt (ix1 n))

/-- The batch loss. -/
def batchLoss (out : (⟨2, ![4194304, 2]⟩ : Shape).Idx → EReal) (tgt : (⟨1, ![4194304]⟩ : Shape).Idx → BitVec 32) : EReal :=
  ∑ n : Fin 4194304, lossAt out tgt n

/-- The batch loss as the scalar array both programs return. -/
def result (out : (⟨2, ![4194304, 2]⟩ : Shape).Idx → EReal) (tgt : (⟨1, ![4194304]⟩ : Shape).Idx → BitVec 32) :
    (⟨0, ![]⟩ : Shape).Idx → EReal :=
  fun _ => batchLoss out tgt

/-- Sample number of lane `l` of row `r` of block `b`. -/
def sampleOf (b : Fin 8) (r : Fin 4096) (l : Fin 128) : Fin 4194304 :=
  ⟨(b.val * 4096 + r.val) * 128 + l.val, by have := b.isLt; have := r.isLt; have := l.isLt; omega⟩

@[simp] theorem sampleOf_val (b : Fin 8) (r : Fin 4096) (l : Fin 128) :
    (sampleOf b r l).val = (b.val * 4096 + r.val) * 128 + l.val := rfl

/-- The kernel's guard compares with the ordered "not equal", the reference with the unordered one: on the extended
    reals they are one test. -/
theorem cmp_one_eq_une (x y : EReal) : Ideal.cmp .one x y = Ideal.cmp .une x y := rfl

/-- Zero minus x is −x. -/
theorem zero_word_sub (x : EReal) : Ideal.ofBits .f32 0x00000000#32 - x = -x := by
  rw [Ideal.ofBits_zero_f32, sub_eq_add_neg, zero_add]

/-- The kernel writes the guard with the ordered comparison and −|d| as 0 − |d|: the same function. -/
theorem softHinge_kernel_form (a b : EReal) :
    Scalar.select (Ideal.cmp .one (a - b) (a - b)) (a + b)
        (max a b + Ideal.log1p (Ideal.exp (Ideal.ofBits .f32 0x00000000#32 - max (a - b) (-(a - b))))) - a
      = softHinge a b := by
  unfold softHinge
  rw [zero_word_sub, cmp_one_eq_une]

/-- One block's loss: the sum over its 4096 rows of the sum over the 128 lanes. -/
def blockLoss (f : Fin 4194304 → EReal) (b : Fin 8) : EReal :=
  ∑ r : Fin 4096, ∑ l : Fin 128, f (sampleOf b r l)

/-- A block's 524 288 samples, numbered in row-major order, summed: the block's loss. -/
theorem blockLoss_eq (f : Fin 4194304 → EReal) (b : Fin 8) :
    ∑ q : Fin 524288, f (Cert.BlockSum.pos 8 524288 (by norm_num) b q) = blockLoss f b := by
  unfold blockLoss
  rw [Cert.BlockSum.sum_blocks 4096 128 (by norm_num : 524288 = 4096 * 128)
    (fun q : Fin 524288 => f (Cert.BlockSum.pos 8 524288 (by norm_num) b q))]
  refine Finset.sum_congr rfl fun r _ => Finset.sum_congr rfl fun l _ => congrArg f (Fin.ext ?_)
  simp only [Cert.BlockSum.pos_val, sampleOf_val]
  ring

/-- An accumulator that starts at 0 + (block 0's loss) and adds block k + 1's loss at step k + 1 holds the batch sum
    after step 7. -/
theorem acc_eq_sum (f : Fin 4194304 → EReal) (a : (k : ℕ) → k < 8 → EReal)
    (h0 : ∀ h, a 0 h = 0 + blockLoss f ⟨0, h⟩)
    (hs : ∀ (k : ℕ) (h : k + 1 < 8), a (k + 1) h = a k (Nat.lt_of_succ_lt h) + blockLoss f ⟨k + 1, h⟩) :
    a 7 (by norm_num) = ∑ n : Fin 4194304, f n := by
  refine Cert.BlockSum.chain_blocks_eq_sum 7 524288 (by norm_num) f a (fun h => ?_) (fun k h => ?_)
  · rw [h0 h, blockLoss_eq]
  · rw [hs k h, blockLoss_eq]

end Cert.Hinge

end
-- ==== Proof.KernelPoint.lean ====
/-
  What one grid step adds to the running total.

  The step's three input blocks are 4096 rows of 128 lanes: the two logit columns and the label words. The body forms
  every sample's loss lane by lane, sums each row's 128 lanes, sums the 4096 row sums, and adds the result to the
  1×1 running total it read. So the value it stores is (the total read) + Σ over rows Σ over lanes of the sample's loss.
  At the first step the total read is the zero just stored.
-/
import proofs.«401015_j53386443489369_1_alg».proof.Proof.Gen.KernelIdeal.Skeleton
import proofs.«401015_j53386443489369_1_alg».proof.Proof.Spec
import Idealize.ShloMosaic.Lib.Pipeline.Value
import Idealize.ShloMosaic.PureOps.Ideal.Laws
import Idealize.ShloMosaic.Lib.ValueIdx

noncomputable section

namespace Cert.Hinge.KernelPoint

open Cert.KernelIdeal Cert.KernelIdeal.Gen Idealize.ShloMosaic Idealize.ShloMosaic.ValueIdx Cert.Hinge
open scoped BigOperators

/-- The 1×1 block has one index. -/
theorem idx_one (y : S1x1.Idx) : y = ix2 (0 : Fin 1) (0 : Fin 1) := by
  funext a
  match a with
  | ⟨0, _⟩ => exact Fin.ext (Nat.lt_one_iff.mp (y 0).isLt)
  | ⟨1, _⟩ => exact Fin.ext (Nat.lt_one_iff.mp (y 1).isLt)

/-- The zero the first step stores. -/
theorem reset_apply (y : S1x1.Idx) : (k0_pay1 (F := Ideal)) y = 0 :=
  Ideal.ofBits_zero_f32

/-- Summing each row's lanes, then the column of row sums: the double sum over rows and lanes. -/
theorem rows_of_lanes (src : FVec Ideal S4096x128 .f32) (hφ : FKind.Formats .f32)
    (hacc : (0x00000000#32 : BitVec 32) = FKind.add.neutral .f32 hφ) :
    multiReduction .add [0] S1
        (shapeCast S4096x1 (multiReduction .add [1] S4096 src 0x00000000#32 reduces_S4096x128_S4096 hφ hacc)
          shapeCasts_S4096_S4096x1)
        0x00000000#32 reduces_S4096x1_S1 hφ hacc (ix1 (0 : Fin 1))
      = ∑ r : Fin 4096, ∑ l : Fin 128, src (ix2 r l) := by
  refine (Ideal.multiReduction_add_single _ 0x00000000#32 reduces_S4096x1_S1 hφ hacc (ix1 (0 : Fin 1))).trans ?_
  refine Finset.sum_congr rfl fun r _ => ?_
  refine (shapeCast_apply _ shapeCasts_S4096_S4096x1 _ (ix1 r) ?_).trans ?_
  · rw [Shape.rowMajor_val_one, Shape.rowMajor_val_two]
    show (r : ℕ) = (r : ℕ) * 1 + 0
    omega
  refine (Ideal.multiReduction_add_single src 0x00000000#32 reduces_S4096x128_S4096 hφ hacc (ix1 r)).trans ?_
  exact Finset.sum_congr rfl fun l _ => congrArg src (by funext a; match a with | ⟨0, _⟩ => rfl | ⟨1, _⟩ => rfl)

/-- The value a step stores: the total it read plus the block's loss. -/
theorem step_apply (v3 v5 : Vec Ideal S4096x128 .f32) (v7 : Vec Ideal S4096x128 .i32) (v33 : Vec Ideal S1x1 .f32)
    (y : S1x1.Idx) :
    k0_pay2 (F := Ideal) v3 v5 v7 v33 y
      = v33 y + ∑ r : Fin 4096, ∑ l : Fin 128, sampleLoss (v3 (ix2 r l)) (v5 (ix2 r l)) (v7 (ix2 r l)) := by
  obtain rfl := idx_one y
  unfold k0_pay2
  rw [shapeCast_self v3, shapeCast_self v5, shapeCast_self v7, shapeCast_self v33]
  refine (addf_apply _ _ _).trans ?_
  refine congrArg₂ (fun a b : EReal => a + b) ?_ ?_
  · rfl
  · refine (shapeCast_apply _ shapeCasts_S1_S1x1 (ix2 (0 : Fin 1) (0 : Fin 1)) (ix1 (0 : Fin 1)) ?_).trans ?_
    · rw [Shape.rowMajor_val_one, Shape.rowMajor_val_two]; rfl
    refine (rows_of_lanes _ _ _).trans ?_
    refine Finset.sum_congr rfl fun r _ => Finset.sum_congr rfl fun l _ => ?_
    refine Eq.trans ?_ (softHinge_kernel_form _ _)
    rfl

end Cert.Hinge.KernelPoint

end
-- ==== Proof.KernelPieces.lean ====
/-
  What the running total's buffer holds after a step, by case.

  At the first step the body zeroes the 1×1 buffer, reads the zero back and stores zero plus the block's loss; at every
  later step it reads what the step before left and stores that plus the block's loss. In both cases the last store
  covers the whole buffer, so the buffer holds that store's value.
-/
import proofs.«401015_j53386443489369_1_alg».proof.Proof.Gen.KernelIdeal.Frame
import Idealize.ShloMosaic.Lib.Pipeline.Value

set_option maxRecDepth 16384

noncomputable section

namespace Cert.Hinge.KernelPieces

open Cert.KernelIdeal Cert.KernelIdeal.Gen Idealize.ShloMosaic Idealize.ShloMosaic.TcCoe Idealize.ShloMosaic.Tactic
open Idealize.SL Idealize.SL.Sem

variable {F : FTy → Type} [FloatOps F]

theorem hz : (![0, 0] : Fin 2 → Nat) = fun _ => 0 := by
  funext a; match a with | ⟨0, _⟩ => rfl | ⟨1, _⟩ => rfl

/-- The first step leaves zero plus the block's loss. -/
theorem first_eq (c : Dev nD) (i : grid0.Coords) (arg1 : Memref sig .tc .vmem S4096x128 .f32) (harg1 : arg1.IsWhole)
    (arg2 : Memref sig .tc .vmem S4096x128 .f32) (harg2 : arg2.IsWhole) (arg3 : Memref sig .tc .vmem S4096x128 .i32) (harg3 : arg3.IsWhole)
    (arg4 : Memref sig .tc .vmem S1x1 .f32) (harg4 : arg4.IsWhole) (hc0 : cond0_0 i)
    (x0 : Vec F S4096x128 .f32) (x1 : Vec F S4096x128 .f32) (x2 : Vec F S4096x128 .i32) :
    out0_A_3 c i arg1 harg1 arg2 harg2 arg3 harg3 arg4 harg4 hc0 x0 x1 x2 = k0_pay2 x0 x1 x2 (k0_pay1 (F := F)) := by
  unfold out0_A_3
  rw [View.read_writes_eq_canon _ _ _ (cover0_A_3 c i arg1 harg1 arg2 harg2 arg3 harg3 arg4 harg4 hc0 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread,
    View.ld_unit_zero (S := S4096x128) hz]

/-- A later step leaves what the step before left plus the block's loss. -/
theorem later_eq (c : Dev nD) (i : grid0.Coords) (arg1 : Memref sig .tc .vmem S4096x128 .f32) (harg1 : arg1.IsWhole)
    (arg2 : Memref sig .tc .vmem S4096x128 .f32) (harg2 : arg2.IsWhole) (arg3 : Memref sig .tc .vmem S4096x128 .i32) (harg3 : arg3.IsWhole)
    (arg4 : Memref sig .tc .vmem S1x1 .f32) (harg4 : arg4.IsWhole) (hc0 : ¬cond0_0 i)
    (x0 : Vec F S4096x128 .f32) (x1 : Vec F S4096x128 .f32) (x2 : Vec F S4096x128 .i32) (xo3 : Vec F S1x1 .f32) :
    out0_B_3 c i arg1 harg1 arg2 harg2 arg3 harg3 arg4 harg4 hc0 x0 x1 x2 xo3 = k0_pay2 x0 x1 x2 xo3 := by
  unfold out0_B_3
  rw [View.read_writes_eq_canon _ _ _ (cover0_B_3 c i arg1 harg1 arg2 harg2 arg3 harg3 arg4 harg4 hc0 x0 x1 x2 xo3)]
  unfold kernelRun0_B
  dsimp only
  sl_unfold_words
  rw [View.canon_unit_zero (S := S1x1) hz]
  simp only [View.readAt_eq_ld, harg1.read_unread, harg2.read_unread, harg3.read_unread, harg4.read_unread,
    View.ld_unit_zero (S := S4096x128) hz, View.ld_unit_zero (S := S1x1) hz]

end Cert.Hinge.KernelPieces

end
-- ==== Proof.KernelInputs.lean ====
/-
  The kernel's input blocks as entries of the two argument arrays.

  Before the launch the program cuts the logits array [N, 2] into its two columns and lays each column, and the label
  array, out as 32768 rows of 128 lanes: entry (R, l) of a laid-out array is sample R·128 + l. Grid step b stages rows
  b·4096 … b·4096 + 4095 of each laid-out array, so entry (r, l) of step b's block is sample (b·4096 + r)·128 + l.
-/
import proofs.«401015_j53386443489369_1_alg».proof.Proof.Gen.KernelIdeal.Frame
import proofs.«401015_j53386443489369_1_alg».proof.Proof.Spec
import Idealize.ShloMosaic.Lib.Pipeline.Value
import Idealize.ShloMosaic.Lib.StableHlo.Run
import Idealize.ShloMosaic.Lib.ValueIdx

set_option maxRecDepth 16384

noncomputable section

namespace Cert.Hinge.KernelInputs

open Cert.KernelIdeal Cert.KernelIdeal.Gen Idealize.ShloMosaic Idealize.ShloMosaic.TcCoe Idealize.ShloMosaic.ValueIdx
open Idealize.SL.Sem Cert.Hinge

variable {F : FTy → Type} [FloatOps F]
variable (m : (ℓ : Loc nD τ sig) → Buf (Elt F) ℓ)

/-- The sample at row `R`, lane `l` of the 32768 × 128 layout. -/
def flat (R : Fin 32768) (l : Fin 128) : Fin 4194304 :=
  ⟨R.val * 128 + l.val, by have := R.isLt; have := l.isLt; omega⟩

/-- A column of the logits array, flattened and laid out as 32768 × 128, read at (R, l): the sample's logit. -/
theorem column_layout {α : Type} (x : S4194304x2.Idx → α) (q : Fin 2) (off : Fin 2 → Nat) (hoff : off = ![0, q.val])
    (h : S4194304x2.Slices off S4194304x1) (R : Fin 32768) (l : Fin 128) :
    shapeCast S32768x128 (shapeCast S4194304 (extractStridedSlice S4194304x1 off x h) shapeCasts_S4194304x1_S4194304)
        shapeCasts_S4194304_S32768x128 (ix2 R l)
      = x (ix2 (flat R l) q) := by
  subst hoff
  refine (shapeCast_apply _ shapeCasts_S4194304_S32768x128 (ix2 R l) (ix1 (flat R l)) ?_).trans ?_
  · rw [Shape.rowMajor_val_one, Shape.rowMajor_val_two]; rfl
  refine (shapeCast_apply _ shapeCasts_S4194304x1_S4194304 (ix1 (flat R l)) (ix2 (flat R l) (0 : Fin 1)) ?_).trans ?_
  · rw [Shape.rowMajor_val_two, Shape.rowMajor_val_one]
    show (flat R l).val * 1 + 0 = (flat R l).val
    omega
  refine extractStridedSlice_apply _ x h (ix2 (flat R l) (0 : Fin 1)) (ix2 (flat R l) q) fun a => ?_
  match a with
  | ⟨0, _⟩ => show (flat R l).val = 0 + (flat R l).val; omega
  | ⟨1, _⟩ => show q.val = q.val + 0; omega

/-- The label array laid out as 32768 × 128, read at (R, l): the sample's label. -/
theorem labels_layout {α : Type} (x : S4194304.Idx → α) (R : Fin 32768) (l : Fin 128) :
    shapeCast S32768x128 x shapeCasts_S4194304_S32768x128 (ix2 R l) = x (ix1 (flat R l)) := by
  refine shapeCast_apply _ shapeCasts_S4194304_S32768x128 (ix2 R l) (ix1 (flat R l)) ?_
  rw [Shape.rowMajor_val_one, Shape.rowMajor_val_two]; rfl

/-- What the launch finds in the three staged arrays. -/
theorem staged0 (c : Dev nD) : (V m c main_v2 : S32768x128.Idx → Elt F .f32)
    = shapeCast S32768x128 (shapeCast S4194304 (extractStridedSlice S4194304x1 ![0, 0]
        (m ((c : Thread nD τ).loc main_arg0)) slices_S4194304x2_S4194304x1_0_0) shapeCasts_S4194304x1_S4194304)
        shapeCasts_S4194304_S32768x128 := by
  show StableHlo.after hostOps0 (fun b => m (c, b)) (Proc.devRef .tc main_v2) = _
  after_results
  rfl

theorem staged1 (c : Dev nD) : (V m c main_v5 : S32768x128.Idx → Elt F .f32)
    = shapeCast S32768x128 (shapeCast S4194304 (extractStridedSlice S4194304x1 ![0, 1]
        (m ((c : Thread nD τ).loc main_arg0)) slices_S4194304x2_S4194304x1_0_1) shapeCasts_S4194304x1_S4194304)
        shapeCasts_S4194304_S32768x128 := by
  show StableHlo.after hostOps0 (fun b => m (c, b)) (Proc.devRef .tc main_v5) = _
  after_results
  rfl

theorem staged2 (c : Dev nD) : (V m c main_v6 : S32768x128.Idx → Elt F .i32)
    = shapeCast S32768x128 (m ((c : Thread nD τ).loc main_arg1)) shapeCasts_S4194304_S32768x128 := by
  show StableHlo.after hostOps0 (fun b => m (c, b)) (Proc.devRef .tc main_v6) = _
  after_results
  rfl

/-- Every window's block index at step `t` is (t, 0). -/
theorem index0 (t : Fin cfg0.N) : win0_0.index t 0 = t.val ∧ win0_0.index t 1 = 0 := by
  rcases fin_N0 t with rfl | rfl | rfl | rfl | rfl | rfl | rfl | rfl <;> decide
theorem index1 (t : Fin cfg0.N) : win0_1.index t 0 = t.val ∧ win0_1.index t 1 = 0 := by
  rcases fin_N0 t with rfl | rfl | rfl | rfl | rfl | rfl | rfl | rfl <;> decide
theorem index2 (t : Fin cfg0.N) : win0_2.index t 0 = t.val ∧ win0_2.index t 1 = 0 := by
  rcases fin_N0 t with rfl | rfl | rfl | rfl | rfl | rfl | rfl | rfl <;> decide

/-- Row `r` of step `b`'s block is row b·4096 + r of the laid-out array. -/
def rowOf (b : Fin 8) (r : Fin 4096) : Fin 32768 := ⟨b.val * 4096 + r.val, by have := b.isLt; have := r.isLt; omega⟩

theorem flat_rowOf (b : Fin 8) (r : Fin 4096) (l : Fin 128) : flat (rowOf b r) l = sampleOf b r l := rfl

/-- Entry (r, l) of step `t`'s block of each staged array is the laid-out array's entry (t·4096 + r, l). -/
theorem block0_read (c : Dev nD) (t : Fin cfg0.N) (b : Fin 8) (hb : b.val = t.val) (r : Fin 4096) (l : Fin 128) :
    (iblk m c 0 t : S4096x128.Idx → Elt F .f32) (ix2 r l)
      = (V m c main_v2 : S32768x128.Idx → Elt F .f32) (ix2 (rowOf b r) l) := by
  have hi := index0 t
  unfold iblk
  rw [View.read_apply]
  show (V m c main_v2 : S32768x128.Idx → Elt F .f32) _ = (V m c main_v2 : S32768x128.Idx → Elt F .f32) _
  congr 1
  funext a
  apply Fin.ext
  match a with
  | ⟨0, _⟩ => show win0_0.index t 0 * 4096 + 1 * r.val = b.val * 4096 + r.val; rw [hi.1, hb]; omega
  | ⟨1, _⟩ => show win0_0.index t 1 * 128 + 1 * l.val = l.val; rw [hi.2]; omega

theorem block1_read (c : Dev nD) (t : Fin cfg0.N) (b : Fin 8) (hb : b.val = t.val) (r : Fin 4096) (l : Fin 128) :
    (iblk m c 1 t : S4096x128.Idx → Elt F .f32) (ix2 r l)
      = (V m c main_v5 : S32768x128.Idx → Elt F .f32) (ix2 (rowOf b r) l) := by
  have hi := index1 t
  unfold iblk
  rw [View.read_apply]
  show (V m c main_v5 : S32768x128.Idx → Elt F .f32) _ = (V m c main_v5 : S32768x128.Idx → Elt F .f32) _
  congr 1
  funext a
  apply Fin.ext
  match a with
  | ⟨0, _⟩ => show win0_1.index t 0 * 4096 + 1 * r.val = b.val * 4096 + r.val; rw [hi.1, hb]; omega
  | ⟨1, _⟩ => show win0_1.index t 1 * 128 + 1 * l.val = l.val; rw [hi.2]; omega

theorem block2_read (c : Dev nD) (t : Fin cfg0.N) (b : Fin 8) (hb : b.val = t.val) (r : Fin 4096) (l : Fin 128) :
    (iblk m c 2 t : S4096x128.Idx → Elt F .i32) (ix2 r l)
      = (V m c main_v6 : S32768x128.Idx → Elt F .i32) (ix2 (rowOf b r) l) := by
  have hi := index2 t
  unfold iblk
  rw [View.read_apply]
  show (V m c main_v6 : S32768x128.Idx → Elt F .i32) _ = (V m c main_v6 : S32768x128.Idx → Elt F .i32) _
  congr 1
  funext a
  apply Fin.ext
  match a with
  | ⟨0, _⟩ => show win0_2.index t 0 * 4096 + 1 * r.val = b.val * 4096 + r.val; rw [hi.1, hb]; omega
  | ⟨1, _⟩ => show win0_2.index t 1 * 128 + 1 * l.val = l.val; rw [hi.2]; omega

/-- Entry (r, l) of step `t`'s three blocks: the sample's two logits and its label. -/
theorem block0_at (c : Dev nD) (t : Fin cfg0.N) (b : Fin 8) (hb : b.val = t.val) (r : Fin 4096) (l : Fin 128) :
    (iblk m c 0 t : S4096x128.Idx → Elt F .f32) (ix2 r l)
      = (m ((c : Thread nD τ).loc main_arg0) : S4194304x2.Idx → Elt F .f32) (ix2 (sampleOf b r l) (0 : Fin 2)) := by
  rw [block0_read m c t b hb r l, staged0 m c]
  exact column_layout _ (0 : Fin 2) ![0, 0] rfl _ (rowOf b r) l

theorem block1_at (c : Dev nD) (t : Fin cfg0.N) (b : Fin 8) (hb : b.val = t.val) (r : Fin 4096) (l : Fin 128) :
    (iblk m c 1 t : S4096x128.Idx → Elt F .f32) (ix2 r l)
      = (m ((c : Thread nD τ).loc main_arg0) : S4194304x2.Idx → Elt F .f32) (ix2 (sampleOf b r l) (1 : Fin 2)) := by
  rw [block1_read m c t b hb r l, staged1 m c]
  exact column_layout _ (1 : Fin 2) ![0, 1] rfl _ (rowOf b r) l

theorem block2_at (c : Dev nD) (t : Fin cfg0.N) (b : Fin 8) (hb : b.val = t.val) (r : Fin 4096) (l : Fin 128) :
    (iblk m c 2 t : S4096x128.Idx → Elt F .i32) (ix2 r l)
      = (m ((c : Thread nD τ).loc main_arg1) : S4194304.Idx → Elt F .i32) (ix1 (sampleOf b r l)) := by
  rw [block2_read m c t b hb r l, staged2 m c]
  exact labels_layout _ (rowOf b r) l

end Cert.Hinge.KernelInputs

end
-- ==== Proof.KernelTotal.lean ====
/-
  The running total after every grid step, and the batch loss after the last.

  Step 0 leaves 0 + (block 0's loss) in the 1×1 buffer; step k + 1 leaves what step k left plus block k + 1's loss. A
  block's loss is the sum over its rows and lanes of the samples' losses, the samples read off the argument arrays. So
  after step 7 the buffer holds the sum of all 4 194 304 samples' losses.
-/
import proofs.«401015_j53386443489369_1_alg».proof.Proof.KernelPoint
import proofs.«401015_j53386443489369_1_alg».proof.Proof.KernelPieces
import proofs.«401015_j53386443489369_1_alg».proof.Proof.KernelInputs

set_option maxRecDepth 16384

noncomputable section

namespace Cert.Hinge.KernelTotal

open Cert.KernelIdeal Cert.KernelIdeal.Gen Idealize.ShloMosaic Idealize.ShloMosaic.TcCoe Idealize.ShloMosaic.ValueIdx
open Idealize.SL.Sem Cert.Hinge
open scoped BigOperators

variable (m : (ℓ : Loc nD τ sig) → Buf (Elt Ideal) ℓ)

/-- The logits and labels core `c` is launched with. -/
abbrev logits (c : Dev nD) : (⟨2, ![4194304, 2]⟩ : Shape).Idx → EReal := m ((c : Thread nD τ).loc main_arg0)
abbrev labels (c : Dev nD) : (⟨1, ![4194304]⟩ : Shape).Idx → BitVec 32 := m ((c : Thread nD τ).loc main_arg1)

theorem N8 : cfg0.N = 8 := N_0

/-- Grid step `k`. -/
def pt (k : ℕ) (h : k < 8) : Fin cfg0.N := ⟨k, lt_of_lt_of_eq h N8.symm⟩

theorem pt_val (k : ℕ) (h : k < 8) : (pt k h).val = k := rfl

/-- The loss of step `t`'s block, read off its three input blocks, is block `t`'s loss of the batch. -/
theorem block_loss (c : Dev nD) (t : Fin cfg0.N) (b : Fin 8) (hb : b.val = t.val) :
    ∑ r : Fin 4096, ∑ l : Fin 128,
        sampleLoss ((iblk m c 0 t : S4096x128.Idx → EReal) (ix2 r l)) ((iblk m c 1 t : S4096x128.Idx → EReal) (ix2 r l))
          ((iblk m c 2 t : S4096x128.Idx → BitVec 32) (ix2 r l))
      = blockLoss (lossAt (logits m c) (labels m c)) b := by
  unfold blockLoss lossAt
  refine Finset.sum_congr rfl fun r _ => Finset.sum_congr rfl fun l _ => ?_
  exact congr (congr (congrArg sampleLoss (KernelInputs.block0_at m c t b hb r l)) (KernelInputs.block1_at m c t b hb r l))
    (KernelInputs.block2_at m c t b hb r l)

/-- The total after step `k`, as a number. -/
def totalAt (c : Dev nD) (k : ℕ) (h : k < 8) : EReal :=
  outsAt0 m c (pt k h).val (pt k h).isLt (ix2 (0 : Fin 1) (0 : Fin 1))

theorem total_first (c : Dev nD) (h : 0 < 8) :
    totalAt m c 0 h = 0 + blockLoss (lossAt (logits m c) (labels m c)) ⟨0, h⟩ := by
  have h0 : (pt 0 h).val % 8 = 0 := rfl
  unfold totalAt
  refine (congrFun (outsAt0_A m c (pt 0 h) h0) _).trans ?_
  refine (congrFun (KernelPieces.first_eq c (grid0.coords (pt 0 h)) (ms0_0 (pt 0 h)) (hs0_0 (pt 0 h)) (ms0_1 (pt 0 h))
    (hs0_1 (pt 0 h)) (ms0_2 (pt 0 h)) (hs0_2 (pt 0 h)) (ms0_3 (pt 0 h)) (hs0_3 (pt 0 h)) ((hcond0_0 (pt 0 h)).mpr h0)
    (iblk m c 0 (pt 0 h)) (iblk m c 1 (pt 0 h)) (iblk m c 2 (pt 0 h))) _).trans ?_
  refine (KernelPoint.step_apply (iblk m c 0 (pt 0 h)) (iblk m c 1 (pt 0 h)) (iblk m c 2 (pt 0 h))
    (k0_pay1 (F := Ideal)) _).trans ?_
  exact congrArg₂ (fun a b : EReal => a + b) (KernelPoint.reset_apply _) (block_loss m c (pt 0 h) ⟨0, h⟩ rfl)

theorem total_step (c : Dev nD) (k : ℕ) (h : k + 1 < 8) :
    totalAt m c (k + 1) h
      = totalAt m c k (Nat.lt_of_succ_lt h) + blockLoss (lossAt (logits m c) (labels m c)) ⟨k + 1, h⟩ := by
  have hB : ¬(pt (k + 1) h).val % 8 = 0 := by rw [pt_val]; omega
  unfold totalAt
  refine (congrFun (outsAt0_B m c (pt (k + 1) h) hB) _).trans ?_
  refine (congrFun (KernelPieces.later_eq c (grid0.coords (pt (k + 1) h)) (ms0_0 (pt (k + 1) h)) (hs0_0 (pt (k + 1) h))
    (ms0_1 (pt (k + 1) h)) (hs0_1 (pt (k + 1) h)) (ms0_2 (pt (k + 1) h)) (hs0_2 (pt (k + 1) h)) (ms0_3 (pt (k + 1) h))
    (hs0_3 (pt (k + 1) h)) (fun hc => hB ((hcond0_0 (pt (k + 1) h)).mp hc))
    (iblk m c 0 (pt (k + 1) h)) (iblk m c 1 (pt (k + 1) h)) (iblk m c 2 (pt (k + 1) h))
    (outsAt0 m c ((pt (k + 1) h).val - 1) (Nat.lt_of_le_of_lt (Nat.sub_le _ _) (pt (k + 1) h).isLt))) _).trans ?_
  refine (KernelPoint.step_apply (iblk m c 0 (pt (k + 1) h)) (iblk m c 1 (pt (k + 1) h)) (iblk m c 2 (pt (k + 1) h))
    (outsAt0 m c ((pt (k + 1) h).val - 1) (Nat.lt_of_le_of_lt (Nat.sub_le _ _) (pt (k + 1) h).isLt)) _).trans ?_
  exact congrArg₂ (fun a b : EReal => a + b) rfl (block_loss m c (pt (k + 1) h) ⟨k + 1, h⟩ rfl)

/-- After the last step the buffer holds the batch loss. -/
theorem total_last (c : Dev nD) : totalAt m c 7 (by norm_num) = batchLoss (logits m c) (labels m c) :=
  acc_eq_sum (lossAt (logits m c) (labels m c)) (totalAt m c) (total_first m c) (total_step m c)

/-- The buffer after the last step, as a 1×1 block. -/
theorem last_block (c : Dev nD) (h : 7 < cfg0.N) :
    outsAt0 m c 7 h = fun _ => batchLoss (logits m c) (labels m c) := by
  funext y
  obtain rfl := KernelPoint.idx_one y
  exact total_last m c

end Cert.Hinge.KernelTotal

end
-- ==== Proof.KernelRun.lean ====
/-
  The kernel's run: its result is the batch loss.

  The running total's block is written back to its 1×1 array once, after the last step; that block is the whole array,
  so the array ends holding the batch loss. The program then reshapes the 1×1 array to a scalar, which is the result.
-/
import proofs.«401015_j53386443489369_1_alg».proof.Proof.KernelTotal
import Idealize.ShloMosaic.Lib.StableHlo.Run

set_option maxRecDepth 16384

noncomputable section

namespace Cert.Hinge.KernelRun

open Cert.KernelIdeal Cert.KernelIdeal.Gen Idealize.ShloMosaic Idealize.ShloMosaic.TcCoe Idealize.ShloMosaic.ValueIdx
open Idealize.SL.Sem Cert.Hinge Cert.Hinge.KernelTotal
open Idealize.ShloMosaic.Pipeline (Dat)

variable (m : (ℓ : Loc nD τ sig) → Buf (Elt Ideal) ℓ) (ρ : Dev nD → PrngReg)

/-- The 1×1 array holding the batch loss. -/
abbrev lossArr (c : Dev nD) : Buf (Elt Ideal) ((c : Thread nD τ).loc main_v7) :=
  fun _ => batchLoss (logits m c) (labels m c)

/-- The one write-back, after step 7, writes the batch loss. -/
theorem flushed_eq (c : Dev nD) (t : Fin cfg0.N) (hf : (cfg0.win 3).flush t = true) :
    (dats m 0 c).flushed 3 t = ((cfg0.win 3).blk t).view.read (Elt Ideal) (lossArr m c) := by
  have hN : cfg0.N = 8 := N_0
  have h7 : t.val = 7 := by have := (flush0_3 t).mp hf; have := t.isLt; omega
  obtain rfl : t = t0_7 := Fin.ext h7
  show (cfg0.win 3).cut (grid0.coords t0_7) ((dats m 0 c).after 3 t0_7) = _
  rw [after0_3, show outsAt0 m c t0_7.val t0_7.isLt = fun _ => batchLoss (logits m c) (labels m c) from
    last_block m c t0_7.isLt]
  have hz' : (fun a => win0_3.index t0_7 a * main_v7.ty.shape.size a) = fun _ => 0 :=
    funext fun a => by fin_cases a <;> decide
  exact (Memref.read_access_unit_zero (Elt Ideal) main_v7 hz' (fun a => by rw [congrFun hz' a]; simp)
    (lossArr m c)).symm

/-- So the array ends holding the batch loss. -/
theorem final_arr (c : Dev nD) : (dats m 0 c).arrAt 3 cfg0.N = lossArr m c :=
  (dats m 0 c).arrAt_eq_of_cover 3 (lossArr m c) (flushed_eq m c) fun i =>
    ⟨t0_7, (flush0_3 t0_7).mpr rfl, by
      show i ∈ ((View.whole main_v7).slice (win0_3.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 1 from by decide +kernel]; omega⟩

/-- The reshape after the launch turns the 1×1 array into the scalar result. -/
theorem tail_eq (c : Dev nD) :
    Pipeline.afterTail₀ cfgs (dats m) 0 (V0 m) [hostOps1] c main_v8 = Cert.Hinge.result (logits m c) (labels m c) := by
  unfold Pipeline.afterTail₀
  show StableHlo.after hostOps1 _ (Proc.devRef .tc main_v8) = _
  after_results
  have e : Pipeline.withArrays (cfgs 0).spec c (V0 m c) (fun w => (dats m 0 c).arrAt w (cfgs 0).N)
      (Proc.devRef .tc main_v7) = lossArr m c :=
    (Pipeline.withArrays_arr spec0 launch0.win.arr_inj c _ _ (3 : Fin 4)).trans (final_arr m c)
  rw [e]
  rfl

/-- Every weakly fair execution of the kernel's program ends with the batch loss as its result and the arguments as
    they were. -/
theorem run : θ_run defs (onTc (τ := τ) (main (F := Ideal))) ⟨m, fun _ => 0, ρ⟩ fun r => ∀ c : Dev nD,
      r.2.mem ((c : Thread nD τ).loc main_v8) = Cert.Hinge.result (logits m c) (labels m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v8 (Pipeline.mem_restRefs_of main_v8 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Hinge.KernelRun

end
-- ==== Proof.LibPairs.lean ====
/-
  GENERAL LEMMAS (no program): jnp's `x[rows, cols]` and `x.at[rows, cols].set(u)` over a matrix, read at an index.

  Both lower to StableHLO with ONE index pair (row, column) per result / update element: a `gather` of 1×1 slices with
  both axes collapsed, and a `scatter` of scalar updates with both axes inserted, the pairs the rows of an [N, 2] table.
  When the table's row p holds the in-range pair (r, q), the gather's element p is x[r, q]; when row p holds (p, code p)
  for every p — each update lands in its own row of the matrix, so no two collide — the scatter with a `set` body leaves
  u[p] at (p, code p) and x elsewhere.

  The argument. With both matrix axes collapsed (gather) or inserted (scatter) an element has no offset or window
  coordinate, so the matrix index it touches is the pair of its table row alone, read as signed integers; a word below
  2³¹ reads back as itself, and an in-range start is not moved by the gather's clamp. The scatter is a left fold of
  overwriting steps over the updates in order: read at one index, such a fold returns a value v as soon as every step
  that lands on the index writes v and either some step does land there or the matrix held v already. Update n lands at
  (n, code n), so (p, q) is met by update p alone when q = code p, and by no update otherwise.
-/
import Idealize.ShloMosaic.PureOps.Ideal
import Idealize.ShloMosaic.Lib.ValueIdx

namespace Cert.LibPairs

open Idealize.ShloMosaic Idealize.ShloMosaic.ValueIdx

/-- A natural number below 2³¹, written as a 32-bit word, reads back as itself when the word is read signed. -/
theorem toInt_word (k : ℕ) (hk : k < 2 ^ 31) : (BitVec.ofNat 32 k).toInt = (k : ℤ) := by
  rw [BitVec.toInt_eq_toNat_cond, BitVec.toNat_ofNat, Nat.mod_eq_of_lt (by omega), if_pos (by omega)]

/-- A left fold of overwriting steps, read at one index. -/
theorem foldl_overwrite_apply {ι β γ : Type} [DecidableEq ι] (tgt : γ → ι) (val : γ → β) (i : ι) (v : β) :
    ∀ (l : List γ) (x : ι → β), (∀ n ∈ l, tgt n = i → val n = v) → (x i = v ∨ ∃ n ∈ l, tgt n = i) →
      (l.foldl (fun r n k => if k = tgt n then val n else r k) x) i = v := by
  intro l
  induction l with
  | nil =>
    intro x _ h
    rcases h with h | ⟨n, hn, _⟩
    · exact h
    · cases hn
  | cons m l ih =>
    intro x hval h
    rw [List.foldl_cons]
    refine ih _ (fun n hn => hval n (List.mem_cons_of_mem _ hn)) ?_
    by_cases hm : tgt m = i
    · left
      show (if i = tgt m then val m else x i) = v
      rw [if_pos hm.symm]; exact hval m (List.mem_cons_self ..) hm
    · rcases h with h | ⟨n, hn, hni⟩
      · left
        show (if i = tgt m then val m else x i) = v
        rw [if_neg (fun e => hm e.symm)]; exact h
      · rcases List.mem_cons.1 hn with rfl | hn'
        · exact absurd hni hm
        · exact Or.inr ⟨n, hn', hni⟩

/-- The one coordinate of an index into a vector of length `N`. -/
def vecCoord {N : ℕ} (j : (⟨1, ![N]⟩ : Shape).Idx) : Fin N := j 0

/-- An index into a vector is given by its coordinate. -/
theorem eq_ix1_vecCoord {N : ℕ} (j : (⟨1, ![N]⟩ : Shape).Idx) : j = ix1 (vecCoord j) := eq_ix1 j

section Gather
variable {N L : ℕ} (d : GatherDims ⟨2, ![N, L]⟩ ⟨2, ![N, 2]⟩ ⟨1, ![N]⟩)

/-- The start of the 1×1 slice that result element `p` reads is, on matrix axis `a`, entry `a` of the table's row `p`,
    read signed and clamped into the axis. -/
theorem gather_start (h1 : d.offsetDims = []) (h2 : d.collapsedSliceDims = [0, 1]) (h3 : d.operandBatchingDims = [])
    (h4 : d.startIndicesBatchingDims = []) (h5 : d.startIndexMap = [0, 1]) (h6 : d.indexVectorDim = 1)
    (h7 : d.sliceSizes = ![1, 1]) (idx : IVec ⟨2, ![N, 2]⟩ 32) (p : Fin N) (a : Fin 2) :
    d.start (ix1 p) idx a = min (idx (ix2 p a)).toInt.toNat ((⟨2, ![N, L]⟩ : Shape).size a - 1) := by
  obtain ⟨od, cd, ob, sb, sm, iv, ss, wf⟩ := d
  simp only at h1 h2 h3 h4 h5 h6 h7
  subst h1 h2 h3 h4 h5 h6 h7
  have hmem : a ∈ ([0, 1] : List (Fin 2)) := by fin_cases a <;> simp
  unfold GatherDims.start
  rw [dif_pos hmem]
  have hss : (![1, 1] : Fin 2 → ℕ) a = 1 := by fin_cases a <;> rfl
  refine congrArg₂ min (congrArg (fun k => (idx k).toInt.toNat) ?_) (congrArg (fun m => (⟨2, ![N, L]⟩ : Shape).size a - m) hss)
  funext b
  refine Fin.ext ?_
  fin_cases a <;> fin_cases b <;> rfl

/-- With both matrix axes collapsed and no batching axis, the matrix index that result element `p` reads is that start:
    it has no batching and no offset part. -/
theorem gather_operandIdx_val (h1 : d.offsetDims = []) (h2 : d.collapsedSliceDims = [0, 1]) (h3 : d.operandBatchingDims = [])
    (h4 : d.startIndicesBatchingDims = []) (h5 : d.startIndexMap = [0, 1]) (h6 : d.indexVectorDim = 1)
    (h7 : d.sliceSizes = ![1, 1]) (idx : IVec ⟨2, ![N, 2]⟩ 32) (p : Fin N) (a : Fin 2) :
    (d.operandIdx (ix1 p) idx a).val
      = min (idx (ix2 p a)).toInt.toNat ((⟨2, ![N, L]⟩ : Shape).size a - 1) := by
  have hmem : a ∈ ([0, 1] : List (Fin 2)) := by fin_cases a <;> simp
  show d.start (ix1 p) idx a + d.batchCoord (ix1 p) a + d.offCoord (ix1 p) a = _
  rw [d.batchCoord_eq_zero _ _ (by rw [h3]; exact List.not_mem_nil),
    d.offCoord_eq_zero _ _ (fun h => ((d.mem_sKept _).1 h).1 (by rw [h2]; exact hmem))]
  simp only [Nat.add_zero]
  exact gather_start d h1 h2 h3 h4 h5 h6 h7 idx p a

end Gather

section Scatter
variable {N L : ℕ} (d : ScatterDims ⟨2, ![N, L]⟩ ⟨2, ![N, 2]⟩ ⟨1, ![N]⟩)

/-- Both matrix axes are inserted, so an update has no window coordinate on either. -/
theorem scatter_window (h2 : d.insertedWindowDims = [0, 1]) (j : (⟨1, ![N]⟩ : Shape).Idx) (a : Fin 2) :
    d.window j a = 0 := by
  unfold ScatterDims.window
  refine dif_neg fun ha => ?_
  have hm := (List.mem_filter.1 ha).2
  rw [h2] at hm
  fin_cases a <;> simp at hm

/-- The start of update `p` on matrix axis `a` is entry `a` of the table's row `p`, read signed. -/
theorem scatter_start (h1 : d.updateWindowDims = []) (h3 : d.scatterDimsToOperandDims = [0, 1]) (h4 : d.indexVectorDim = 1)
    (idx : IVec ⟨2, ![N, 2]⟩ 32) (p : Fin N) (a : Fin 2) :
    d.start (ix1 p) idx a = (idx (ix2 p a)).toInt := by
  obtain ⟨uw, iw, sd, iv, wf⟩ := d
  simp only at h1 h3 h4
  subst h1 h3 h4
  have hmem : a ∈ ([0, 1] : List (Fin 2)) := by fin_cases a <;> simp
  unfold ScatterDims.start
  rw [dif_pos hmem]
  refine congrArg (fun k => (idx k).toInt) ?_
  funext b
  refine Fin.ext ?_
  fin_cases a <;> fin_cases b <;> rfl

/-- When the table's row `p` is `(p, code p)`, update `p` lands at `(p, code p)`: inside the matrix. -/
theorem scatter_resultIdx (h1 : d.updateWindowDims = []) (h2 : d.insertedWindowDims = [0, 1])
    (h3 : d.scatterDimsToOperandDims = [0, 1]) (h4 : d.indexVectorDim = 1) (hN : N < 2 ^ 31) (hL : L < 2 ^ 31)
    (idx : IVec ⟨2, ![N, 2]⟩ 32) (p : Fin N) (c : Fin L)
    (hrow : idx (ix2 p (0 : Fin 2)) = BitVec.ofNat 32 p.val)
    (hcol : idx (ix2 p (1 : Fin 2)) = BitVec.ofNat 32 c.val) :
    d.resultIdx? (ix1 p) idx = some (ix2 p c) := by
  have hsum : ∀ a : Fin 2, d.start (ix1 p) idx a + (d.window (ix1 p) a : ℤ)
      = (((ix2 p c : (⟨2, ![N, L]⟩ : Shape).Idx) a).val : ℤ) := by
    intro a
    rw [scatter_start d h1 h3 h4, scatter_window d h2]
    fin_cases a
    · show (idx (ix2 p (0 : Fin 2))).toInt + ((0 : ℕ) : ℤ) = ((p.val : ℕ) : ℤ)
      rw [hrow, toInt_word _ (lt_trans p.isLt hN)]; simp
    · show (idx (ix2 p (1 : Fin 2))).toInt + ((0 : ℕ) : ℤ) = ((c.val : ℕ) : ℤ)
      rw [hcol, toInt_word _ (lt_trans c.isLt hL)]; simp
  unfold ScatterDims.resultIdx?
  rw [dif_pos (fun a => by
    rw [hsum a]
    exact ⟨Int.natCast_nonneg _, Int.ofNat_lt.2 ((ix2 p c : (⟨2, ![N, L]⟩ : Shape).Idx) a).isLt⟩)]
  refine congrArg some ?_
  funext a
  refine Fin.ext ?_
  show (d.start (ix1 p) idx a + (d.window (ix1 p) a : ℤ)).toNat = _
  rw [hsum a]
  exact Int.toNat_natCast _

end Scatter

/-- `x[rows, cols]` at `p`: the matrix at the pair the table's row `p` holds, when that pair is in range. -/
theorem gather_pairs_apply {α : Type} {N L : ℕ} (d : GatherDims ⟨2, ![N, L]⟩ ⟨2, ![N, 2]⟩ ⟨1, ![N]⟩)
    (h1 : d.offsetDims = []) (h2 : d.collapsedSliceDims = [0, 1]) (h3 : d.operandBatchingDims = [])
    (h4 : d.startIndicesBatchingDims = []) (h5 : d.startIndexMap = [0, 1]) (h6 : d.indexVectorDim = 1)
    (h7 : d.sliceSizes = ![1, 1]) (hN : N < 2 ^ 31) (hL : L < 2 ^ 31)
    (x : (⟨2, ![N, L]⟩ : Shape).Idx → α) (idx : IVec ⟨2, ![N, 2]⟩ 32) (p : Fin N) (r : Fin N) (q : Fin L)
    (hr : idx (ix2 p (0 : Fin 2)) = BitVec.ofNat 32 r.val) (hq : idx (ix2 p (1 : Fin 2)) = BitVec.ofNat 32 q.val) :
    Host.gather d x idx (ix1 p) = x (ix2 r q) := by
  unfold Host.gather
  refine congrArg x ?_
  funext a
  refine Fin.ext ?_
  rw [gather_operandIdx_val d h1 h2 h3 h4 h5 h6 h7 idx p a]
  fin_cases a
  · show min (idx (ix2 p (0 : Fin 2))).toInt.toNat (N - 1) = r.val
    rw [hr, toInt_word _ (lt_trans r.isLt hN), Int.toNat_natCast]
    exact min_eq_left (Nat.le_sub_one_of_lt r.isLt)
  · show min (idx (ix2 p (1 : Fin 2))).toInt.toNat (L - 1) = q.val
    rw [hq, toInt_word _ (lt_trans q.isLt hL), Int.toNat_natCast]
    exact min_eq_left (Nat.le_sub_one_of_lt q.isLt)

/-- `x.at[rows, cols].set(u)` at `(p, q)` when the table's row `p` is `(p, code p)`: the update at the code's column, the
    matrix elsewhere. -/
theorem scatter_set_pairs_apply {α : Type} {N L : ℕ} (d : ScatterDims ⟨2, ![N, L]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (hN : N < 2 ^ 31) (hL : L < 2 ^ 31)
    (x : (⟨2, ![N, L]⟩ : Shape).Idx → α) (idx : IVec ⟨2, ![N, 2]⟩ 32) (upd : (⟨1, ![N]⟩ : Shape).Idx → α)
    (code : Fin N → Fin L)
    (hrow : ∀ p : Fin N, idx (ix2 p (0 : Fin 2)) = BitVec.ofNat 32 p.val)
    (hcol : ∀ p : Fin N, idx (ix2 p (1 : Fin 2)) = BitVec.ofNat 32 (code p).val)
    (p : Fin N) (q : Fin L) :
    Host.scatter d (fun _ b => b) x idx upd (ix2 p q) = if q = code p then upd (ix1 p) else x (ix2 p q) := by
  have hres : ∀ j : (⟨1, ![N]⟩ : Shape).Idx, d.resultIdx? j idx = some (ix2 (vecCoord j) (code (vecCoord j))) := by
    intro j
    obtain ⟨p', rfl⟩ : ∃ p' : Fin N, j = ix1 p' := ⟨vecCoord j, eq_ix1_vecCoord j⟩
    exact scatter_resultIdx d h1 h2 h3 h4 hN hL idx p' (code p') (hrow p') (hcol p')
  unfold Host.scatter
  simp only [hres]
  by_cases hq : q = code p
  · subst hq
    rw [if_pos rfl]
    refine foldl_overwrite_apply
      (fun n => ix2 (vecCoord ((Shape.rowMajor ⟨1, ![N]⟩).symm n)) (code (vecCoord ((Shape.rowMajor ⟨1, ![N]⟩).symm n))))
      (fun n => upd ((Shape.rowMajor ⟨1, ![N]⟩).symm n)) (ix2 p (code p)) (upd (ix1 p)) _ x ?_ ?_
    · intro n _ hn
      have h0 : vecCoord ((Shape.rowMajor ⟨1, ![N]⟩).symm n) = p := congrFun hn 0
      show upd ((Shape.rowMajor ⟨1, ![N]⟩).symm n) = upd (ix1 p)
      rw [eq_ix1_vecCoord ((Shape.rowMajor ⟨1, ![N]⟩).symm n), h0]
    · refine Or.inr ⟨(Shape.rowMajor ⟨1, ![N]⟩) (ix1 p), List.mem_finRange _, ?_⟩
      show ix2 (vecCoord ((Shape.rowMajor ⟨1, ![N]⟩).symm ((Shape.rowMajor ⟨1, ![N]⟩) (ix1 p))))
        (code (vecCoord ((Shape.rowMajor ⟨1, ![N]⟩).symm ((Shape.rowMajor ⟨1, ![N]⟩) (ix1 p))))) = ix2 p (code p)
      rw [Equiv.symm_apply_apply]
      rfl
  · rw [if_neg hq]
    refine foldl_overwrite_apply
      (fun n => ix2 (vecCoord ((Shape.rowMajor ⟨1, ![N]⟩).symm n)) (code (vecCoord ((Shape.rowMajor ⟨1, ![N]⟩).symm n))))
      (fun n => upd ((Shape.rowMajor ⟨1, ![N]⟩).symm n)) (ix2 p q) (x (ix2 p q)) _ x ?_ (Or.inl rfl)
    intro n _ hn
    have h0 : vecCoord ((Shape.rowMajor ⟨1, ![N]⟩).symm n) = p := congrFun hn 0
    have h1' : code (vecCoord ((Shape.rowMajor ⟨1, ![N]⟩).symm n)) = q := congrFun hn 1
    exact absurd (by rw [← h1', h0]) hq

end Cert.LibPairs
-- ==== Proof.Reference.lean ====
/-
  The reference's result is the batch loss, when every label is 0 or 1.

  The reference reads the logit of a sample's own class with a gather at the index pair (n, t) and the other class's
  with a gather at (n, 1 − t); jnp's negative-index wrap turns a pair entry x into x + extent when x < 0. For a sample
  number n (below 2³¹) and a label 0 or 1 neither wrap fires and both pairs are in range: (n, 0) and (n, 1) for t = 0,
  (n, 1) and (n, 0) for t = 1 — the entries the label test "t = 0" selects. The margin is selected by that same test,
  the rest of the chain is the soft hinge of the spec, and the final reduce is zero plus the sum over all samples.
-/
import proofs.«401015_j53386443489369_1_alg».proof.Proof.Gen.ReferenceIdeal.Read
import proofs.«401015_j53386443489369_1_alg».proof.Proof.Spec
import proofs.«401015_j53386443489369_1_alg».proof.Proof.LibPairs
import Idealize.ShloMosaic.Lib.Pipeline.Value
import Idealize.ShloMosaic.Lib.Affine
import Idealize.ShloMosaic.Lib.ValueIdx

noncomputable section

namespace Cert.Hinge.Reference

open Cert.ReferenceIdeal Cert.ReferenceIdeal.Gen Cert.ReferenceIdeal.Read
open Idealize.ShloMosaic Idealize.ShloMosaic.ValueIdx Cert.Hinge
open scoped BigOperators

variable (x0 : (⟨S4194304x2, .f32⟩ : BufTy).Contents (Elt Ideal)) (x1 : (⟨S4194304, .i32⟩ : BufTy).Contents (Elt Ideal))

/-- A sample number, as a word, is not negative. -/
theorem sample_nonneg (n : Fin 4194304) : IntOp.cmpi .slt (BitVec.ofNat 32 n.val) 0#32 = 0#1 := by
  refine eq_zero_of_ne_one fun h => ?_
  have h' := IntOp.cmpi_slt.mp h
  rw [Cert.LibPairs.toInt_word _ (by have := n.isLt; omega)] at h'
  have e0 : (0#32 : BitVec 32).toInt = 0 := by decide
  rw [e0] at h'
  omega

/-- The first entry of both index pairs of sample `n` is `n`. -/
theorem row_first (n : Fin 4194304) : val_main_v5 (F := Ideal) (ix1 n) = BitVec.ofNat 32 n.val := by
  rw [val_main_v5_apply, val_main_v2_apply, val_main_v0_apply, val_main_v1_apply, val_main_c_apply]
  show Scalar.select (IntOp.cmpi .slt (BitVec.ofNat 32 n.val) 0#32) _ (BitVec.ofNat 32 n.val) = _
  rw [sample_nonneg n, select_zero]

theorem row_second (n : Fin 4194304) : val_main_v21 (F := Ideal) (ix1 n) = BitVec.ofNat 32 n.val := by
  rw [val_main_v21_apply, val_main_v18_apply, val_main_v0_apply, val_main_v17_apply, val_main_c_4_apply]
  show Scalar.select (IntOp.cmpi .slt (BitVec.ofNat 32 n.val) 0#32) _ (BitVec.ofNat 32 n.val) = _
  rw [sample_nonneg n, select_zero]

/-- The class a binary label selects, and the other class. -/
def own (t : BitVec 32) : Fin 2 := if t = 0#32 then 0 else 1
def other (t : BitVec 32) : Fin 2 := if t = 0#32 then 1 else 0

/-- The second entry of the first pair is the label's class … -/
theorem col_first (n : Fin 4194304) (ht : x1 (ix1 n) = 0#32 ∨ x1 (ix1 n) = 1#32) :
    val_main_v10 (F := Ideal) x1 (ix1 n) = BitVec.ofNat 32 (own (x1 (ix1 n))).val := by
  rw [val_main_v10_apply, val_main_v7_apply, val_main_v9_apply, val_main_v6_apply, val_main_c_1_apply,
    val_main_v8_apply, val_main_c_2_apply]
  rcases ht with ht | ht <;> rw [ht] <;> decide

/-- … and of the second pair the other class. -/
theorem col_second (n : Fin 4194304) (ht : x1 (ix1 n) = 0#32 ∨ x1 (ix1 n) = 1#32) :
    val_main_v26 (F := Ideal) x1 (ix1 n) = BitVec.ofNat 32 (other (x1 (ix1 n))).val := by
  rw [val_main_v26_apply, val_main_v23_apply, val_main_v25_apply, val_main_v16_apply, val_main_v15_apply,
    val_main_c_3_apply, val_main_v22_apply, val_main_c_6_apply, val_main_v24_apply, val_main_c_7_apply]
  rcases ht with ht | ht <;> rw [ht] <;> decide

theorem col_of (n : Fin 4194304) : (fun a : Fin 1 => match a with | ⟨0, _⟩ => (⟨n.val, n.isLt⟩ : Fin 4194304)) = ix1 n := by
  funext a; match a with | ⟨0, _⟩ => rfl

/-- The two index tables, row `n`. -/
theorem pairs_first (n : Fin 4194304) (ht : x1 (ix1 n) = 0#32 ∨ x1 (ix1 n) = 1#32) :
    val_main_v13 (F := Ideal) x1 (ix2 n (0 : Fin 2)) = BitVec.ofNat 32 n.val
    ∧ val_main_v13 (F := Ideal) x1 (ix2 n (1 : Fin 2)) = BitVec.ofNat 32 (own (x1 (ix1 n))).val := by
  constructor
  · unfold val_main_v13
    refine (concatenate_pair_apply_left (t := S4194304x2) (s₁ := S4194304x1) (s₂ := S4194304x1) (1 : Fin 2)
      (val_main_v11 (F := Ideal)) (val_main_v12 (F := Ideal) x1) concatenates_S4194304x1_S4194304x1_S4194304x2_d1
      (ix2 n (0 : Fin 2)) rfl (ix2 n (0 : Fin 1)) (fun b => by match b with | ⟨0, _⟩ => rfl | ⟨1, _⟩ => rfl)).trans ?_
    rw [val_main_v11_apply]
    exact (congrArg (val_main_v5 (F := Ideal)) (col_of n)).trans (row_first n)
  · unfold val_main_v13
    refine (concatenate_pair_apply_right (t := S4194304x2) (s₁ := S4194304x1) (s₂ := S4194304x1) (1 : Fin 2)
      (val_main_v11 (F := Ideal)) (val_main_v12 (F := Ideal) x1) concatenates_S4194304x1_S4194304x1_S4194304x2_d1
      (ix2 n (1 : Fin 2)) rfl rfl (ix2 n (0 : Fin 1))
      (fun b hb => by match b with | ⟨0, _⟩ => rfl | ⟨1, _⟩ => exact absurd rfl hb) rfl).trans ?_
    rw [val_main_v12_apply]
    exact (congrArg (val_main_v10 (F := Ideal) x1) (col_of n)).trans (col_first x1 n ht)

theorem pairs_second (n : Fin 4194304) (ht : x1 (ix1 n) = 0#32 ∨ x1 (ix1 n) = 1#32) :
    val_main_v29 (F := Ideal) x1 (ix2 n (0 : Fin 2)) = BitVec.ofNat 32 n.val
    ∧ val_main_v29 (F := Ideal) x1 (ix2 n (1 : Fin 2)) = BitVec.ofNat 32 (other (x1 (ix1 n))).val := by
  constructor
  · unfold val_main_v29
    refine (concatenate_pair_apply_left (t := S4194304x2) (s₁ := S4194304x1) (s₂ := S4194304x1) (1 : Fin 2)
      (val_main_v27 (F := Ideal)) (val_main_v28 (F := Ideal) x1) concatenates_S4194304x1_S4194304x1_S4194304x2_d1
      (ix2 n (0 : Fin 2)) rfl (ix2 n (0 : Fin 1)) (fun b => by match b with | ⟨0, _⟩ => rfl | ⟨1, _⟩ => rfl)).trans ?_
    rw [val_main_v27_apply]
    exact (congrArg (val_main_v21 (F := Ideal)) (col_of n)).trans (row_second n)
  · unfold val_main_v29
    refine (concatenate_pair_apply_right (t := S4194304x2) (s₁ := S4194304x1) (s₂ := S4194304x1) (1 : Fin 2)
      (val_main_v27 (F := Ideal)) (val_main_v28 (F := Ideal) x1) concatenates_S4194304x1_S4194304x1_S4194304x2_d1
      (ix2 n (1 : Fin 2)) rfl rfl (ix2 n (0 : Fin 1))
      (fun b hb => by match b with | ⟨0, _⟩ => rfl | ⟨1, _⟩ => exact absurd rfl hb) rfl).trans ?_
    rw [val_main_v28_apply]
    exact (congrArg (val_main_v26 (F := Ideal) x1) (col_of n)).trans (col_second x1 n ht)

/-- The two gathers: the own-class logit and the other-class logit of sample `n`. -/
theorem own_logit (n : Fin 4194304) (ht : x1 (ix1 n) = 0#32 ∨ x1 (ix1 n) = 1#32) :
    val_main_v14 (F := Ideal) x0 x1 (ix1 n) = x0 (ix2 n (own (x1 (ix1 n)))) := by
  unfold val_main_v14
  exact Cert.LibPairs.gather_pairs_apply gather_S4194304x2_S4194304x2_S4194304_n_01_n_n_01_1_11 rfl rfl rfl rfl rfl rfl rfl
    (by norm_num) (by norm_num) x0 _ n n _ (pairs_first x1 n ht).1 (pairs_first x1 n ht).2

theorem other_logit (n : Fin 4194304) (ht : x1 (ix1 n) = 0#32 ∨ x1 (ix1 n) = 1#32) :
    val_main_v30 (F := Ideal) x0 x1 (ix1 n) = x0 (ix2 n (other (x1 (ix1 n)))) := by
  unfold val_main_v30
  exact Cert.LibPairs.gather_pairs_apply gather_S4194304x2_S4194304x2_S4194304_n_01_n_n_01_1_11 rfl rfl rfl rfl rfl rfl rfl
    (by norm_num) (by norm_num) x0 _ n n _ (pairs_second x1 n ht).1 (pairs_second x1 n ht).2

/-- The margin the label test selects. -/
theorem margin_apply (n : Fin 4194304) :
    val_main_v33 (F := Ideal) x1 (ix1 n) = Scalar.select (IntOp.cmpi .eq (x1 (ix1 n)) 0#32) margin0 margin1 := by
  rw [val_main_v33_apply, val_main_v32_apply, val_main_v31_apply, val_main_c_8_apply, val_main_call0_v0_apply,
    val_main_cst_apply, val_main_call0_v1_apply, val_main_cst_9_apply]
  rfl

/-- The chain after the gathers is the soft hinge of (own logit − margin) against the other logit. -/
theorem chain_apply (n : Fin 4194304) :
    val_main_v45 (F := Ideal) x0 x1 (ix1 n)
      = softHinge (val_main_v14 (F := Ideal) x0 x1 (ix1 n) - val_main_v33 (F := Ideal) x1 (ix1 n))
          (val_main_v30 (F := Ideal) x0 x1 (ix1 n)) := rfl

/-- Sample `n`'s term of the reference's sum is its loss. -/
theorem term_apply (n : Fin 4194304) (ht : x1 (ix1 n) = 0#32 ∨ x1 (ix1 n) = 1#32) :
    val_main_v45 (F := Ideal) x0 x1 (ix1 n) = lossAt x0 x1 n := by
  rw [chain_apply, own_logit x0 x1 n ht, other_logit x0 x1 n ht, margin_apply]
  unfold lossAt sampleLoss own other
  rcases ht with ht | ht <;> rw [ht] <;> rfl

/-- The reference's result is the batch loss. -/
theorem result_eq (hbin : ∀ n : Fin 4194304, x1 (ix1 n) = 0#32 ∨ x1 (ix1 n) = 1#32) :
    val_main_v46 (F := Ideal) x0 x1 = Cert.Hinge.result x0 x1 := by
  funext i
  rw [val_main_v46_apply, val_main_cst_10_apply]
  show Ideal.ofBits .f32 0x00000000#32 + _ = batchLoss x0 x1
  rw [Ideal.ofBits_zero_f32, zero_add]
  unfold batchLoss
  refine (Fintype.sum_equiv (Equiv.ofBijective (fun n : Fin 4194304 => (ix1 n : S4194304.Idx))
    ⟨fun a b h => by have := congrFun h 0; exact this, fun j => ⟨j 0, (eq_ix1 j).symm⟩⟩) _ _ fun n => ?_).symm
  exact (term_apply x0 x1 n (hbin n)).symm

end Cert.Hinge.Reference

end
-- ==== Proof.Labels.lean ====
/-
  What the precondition says of the labels.

  The precondition is the conjunction of two "all" tests: every logit is finite, and every label t satisfies
  0 ≤ t and t < 2 as a signed word. A conjunction of one-bit words is 1 only if both are; an "all" reduction is 1 only
  if every entry is 1; and a signed word between 0 and 1 is the word 0 or the word 1. So every label is 0 or 1.
-/
import proofs.«401015_j53386443489369_1_alg».proof.Pre_finite_inputs
import proofs.«401015_j53386443489369_1_alg».proof.Proof.Gen.Pre_finite_inputs
import Idealize.ShloMosaic.Lib.ReduceAll
import Idealize.ShloMosaic.Lib.Affine
import Idealize.ShloMosaic.Lib.StableHlo.Predicate
import Idealize.ShloMosaic.Lib.ValueIdx

noncomputable section

namespace Cert.Hinge.Labels

open Idealize.ShloMosaic Idealize.ShloMosaic.ValueIdx Cert.Pre_finite_inputs

/-- The scalar shape has one index. -/
instance : Subsingleton S_.Idx := ⟨fun a b => funext fun d => d.elim0⟩

/-- A signed word between 0 and 1 is the word 0 or the word 1. -/
theorem word_binary (t : BitVec 32) (h0 : (0#32 : BitVec 32).toInt ≤ t.toInt) (h2 : t.toInt < (2#32 : BitVec 32).toInt) :
    t = 0#32 ∨ t = 1#32 := by
  have e0 : (0#32 : BitVec 32).toInt = 0 := by decide
  have e2 : (2#32 : BitVec 32).toInt = 2 := by decide
  rw [e0] at h0; rw [e2] at h2
  rcases (by omega : t.toInt = 0 ∨ t.toInt = 1) with h | h
  · left; exact BitVec.eq_of_toInt_eq (by rw [h]; decide)
  · right; exact BitVec.eq_of_toInt_eq (by rw [h]; decide)

/-- Under the precondition every label is 0 or 1. -/
theorem label_binary {F : FTy → Type} [FloatOps F] [Cert.Pre_finite_inputs.Facts]
    (out : FVec F S4194304x2 .f32) (tgt : IVec S4194304 32)
    (h : Cert.Pre_finite_inputs.fn (F := F) out tgt = fun _ => 1#1) (n : Fin 4194304) :
    tgt (ix1 n) = 0#32 ∨ tgt (ix1 n) = 1#32 := by
  have h0 := congrFun h ix0
  dsimp only [Cert.Pre_finite_inputs.fn] at h0
  have h9 := (IntOp.andi_eq_one.mp h0).2
  have h8 := Host.reduce_andi_all _ _ Facts.reducesTo_S4194304_S_d0 Facts.h_S_ ix0 h9 (ix1 n)
  obtain ⟨hge, hlt⟩ := IntOp.andi_eq_one.mp h8
  have hge' := IntOp.cmpi_sge.mp hge
  have hlt' := IntOp.cmpi_slt.mp hlt
  rw [StableHlo.Predicate.bcast_scalar _ Facts.h_S_] at hge' hlt'
  exact word_binary _ hge' hlt'

end Cert.Hinge.Labels

end
-- ==== Proof.lean ====
/-
  A margin hinge loss over 4 194 304 binary-labelled samples: the tiled kernel against the jnp reference.

  Both programs compute, for every sample with logits (z₀, z₁) and label t, the loss logaddexp(a, z_o) − a with
  a = z_y − δ, where (z_y, z_o, δ) is (z₀, z₁, δ₀) when t = 0 and (z₁, z₀, δ₁) otherwise, and return the sum over the
  batch. The kernel picks z_y, z_o and δ with the test t = 0; the reference picks δ with that test but reads z_y and
  z_o with gathers at the columns t and 1 − t, which are the columns the test picks exactly when t is 0 or 1 — the
  range of an index into the two logit columns, and the precondition's second conjunct. The kernel sums 8 blocks of
  4096 rows of 128 lanes, lane sums first, then row sums, then a running total across the grid; the reference sums all
  samples at once. Addition of extended reals is commutative and associative, so the two sums agree
  (Spec.lean: `acc_eq_sum`); no finiteness is used.

  Kernel side: what a grid step stores (KernelPoint), what the running total's buffer holds by case (KernelPieces), the
  input blocks as entries of the arguments (KernelInputs), the total after every step (KernelTotal), and the run with
  the final reshape (KernelRun). Reference side: Reference. The labels' range from the precondition: Labels.
-/
import proofs.«401015_j53386443489369_1_alg».proof.Defs
import proofs.«401015_j53386443489369_1_alg».proof.Proof.Gen.Kernel
import proofs.«401015_j53386443489369_1_alg».proof.Proof.Gen.Kernel.Frame
import proofs.«401015_j53386443489369_1_alg».proof.Proof.Gen.KernelIdeal
import proofs.«401015_j53386443489369_1_alg».proof.Proof.Gen.KernelIdeal.Frame
import proofs.«401015_j53386443489369_1_alg».proof.Proof.Gen.ReferenceIdeal
import proofs.«401015_j53386443489369_1_alg».proof.Proof.Gen.Pre_finite_inputs
import proofs.«401015_j53386443489369_1_alg».proof.Proof.Gen.ReferenceIdeal.Run
import proofs.«401015_j53386443489369_1_alg».proof.Proof.Gen.ReferenceIdeal.Read
import proofs.«401015_j53386443489369_1_alg».proof.Proof.KernelRun
import proofs.«401015_j53386443489369_1_alg».proof.Proof.Reference
import proofs.«401015_j53386443489369_1_alg».proof.Proof.Labels
import Idealize.ShloMosaic.Adequacy
import Idealize.ShloMosaic.Init

noncomputable section

namespace Cert.Proof

open Idealize.ShloMosaic Idealize.SL.Sem

/-- The three programs run to the end and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs return the batch loss of the logits and labels they are given, when every
    label is 0 or 1. -/
theorem algebraic : Cert.algebraic_KernelIdeal_ReferenceIdeal := by
  intro m ρ m' ρ' hpre hagree
  refine ⟨fun c => Cert.Hinge.result (Cert.Hinge.KernelTotal.logits m c) (Cert.Hinge.KernelTotal.labels m c),
    Cert.Hinge.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2]
  exact Cert.Hinge.Reference.result_eq _ _ fun n => Cert.Hinge.Labels.label_binary _ _ (hpre c) n

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
